-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1x1024 .f32 := Host.absf main_arg4
  let main_cst_6 : FVec F S_ .f32 := constant S_ .f32 0x7F800000#32
  let main_v20 : FVec F S8x1x1024 .f32 := broadcastInDim S8x1x1024 ![] bcast_S_S8x1x1024 main_cst_6
  let main_v21 : IVec S8x1x1024 1 := cmpf .olt main_v19 main_v20
  let main_c_7 : IVec S_ 1 := constantI S_ 1 1#1
  let main_v22 : IVec S_ 1 := (fun x v => Host.reduce IntOp.andi x v reducesTo_S8x1x1024_S_d0_1_2 h_S_) main_v21 main_c_7
  let main_v23 : IVec S_ 1 := andi main_v18 main_v22
  main_v23

def fn {F : FTy → Type} [FloatOps F] (main_arg0 : FVec F S8x2048x1024 .f32) (main_arg1 : FVec F S8x1024x4096 .f32) (main_arg2 : FVec F S8x1x4096 .f32) (main_arg3 : FVec F S8x4096x1024 .f32) (main_arg4 : FVec F S8x1x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S1x512x1024 : Shape := ⟨3, ![1, 512, 1024]⟩
abbrev S1x1024x512 : Shape := ⟨3, ![1, 1024, 512]⟩
abbrev S1x1x512 : Shape := ⟨3, ![1, 1, 512]⟩
abbrev S1x1x1024 : Shape := ⟨3, ![1, 1, 1024]⟩
abbrev S512x1024 : Shape := ⟨2, ![512, 1024]⟩
abbrev S1024x512 : Shape := ⟨2, ![1024, 512]⟩
abbrev S512x512 : Shape := ⟨2, ![512, 512]⟩
abbrev S1x512 : Shape := ⟨2, ![1, 512]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .f32 = 32 ∨ (Rect.block (s := S8x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .f32 = 32 ∨ (Rect.block (s := S8x2048x1024) S1x512x1024.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Body.lean ====
/- One grid point's arithmetic, read at one position of the [1, 512, 1024] output block.

   The cleared block holds zero everywhere. A point adds to what the block held the product of the rectified hidden
   tile with the second weight tile: at row p and column q that is the sum, over the 512 hidden units k of the tile,
   of max(sum over the 1024 features d of x(p, d) * w1(d, k) + b1(k), 0) * w2(k, q). The last point of a run also adds
   the output bias row at column q. The changes of float format in the body are the identity on the extended reals,
   and each product into a zero accumulator is the plain sum over the contracted coordinate. -/
import proofs.«112483_j13855564497414_1_alg».proof.Proof.Gen.KernelIdeal.Skeleton
import proofs.«112483_j13855564497414_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FfnBody

open Cert.KernelIdeal Cert.KernelIdeal.Gen Idealize.ShloMosaic Idealize.ShloMosaic.ValueIdx
open scoped BigOperators

/-- The cleared block is zero at every position. -/
theorem cleared_apply (u : Fin 1) (p : Fin 512) (q : Fin 1024) : k0_pay2 (F := Ideal) (ix3 u p q) = 0 := by
  unfold k0_pay2
  refine (shapeCast_ab_1ab_apply _ _ u p q).trans ?_
  exact Ideal.ofBits_zero_f32

/-- The hidden tile of one point at row p and hidden unit k: the first product plus the bias row, rectified. -/
theorem hidden_apply (x0 : Vec Ideal S1x512x1024 .f32) (x1 : Vec Ideal S1x1024x512 .f32) (x2 : Vec Ideal S1x1x512 .f32)
    (p : Fin 512) (k : Fin 512) :
    maximumf (F := Ideal)
        (addf (matmul dot_S512x1024_S1024x512_S512x512_1_0_0_1_n_n none
            (truncf .bf16 (shapeCast S512x1024 x0 shapeCasts_S1x512x1024_S512x1024) bitsLt_bf16_f32)
            (truncf .bf16 (shapeCast S1024x512 x1 shapeCasts_S1x1024x512_S1024x512) bitsLt_bf16_f32)
            (constant S512x512 .f32 0x00000000#32))
          (broadcastTo S512x512 (shapeCast S1x512 x2 shapeCasts_S1x1x512_S1x512) broadcasts_S1x512_S512x512))
        (broadcast S512x512 (Scalar.ofBits .f32 0x00000000#32)) (ix2 p k)
      = max ((∑ d : Fin 1024, x0 (ix3 0 p d) * x1 (ix3 0 d k)) + x2 (ix3 0 0 k)) 0 := by
  rw [maximumf_apply, addf_apply, broadcast_apply]
  have hm := Cert.DotPlain.matmul_zero_rows_cols (M := 512) (K := 1024) (N := 512) dot_S512x1024_S1024x512_S512x512_1_0_0_1_n_n rfl rfl rfl rfl rfl rfl none
    (truncf .bf16 (shapeCast S512x1024 x0 shapeCasts_S1x512x1024_S512x1024) bitsLt_bf16_f32)
    (truncf .bf16 (shapeCast S1024x512 x1 shapeCasts_S1x1024x512_S1024x512) bitsLt_bf16_f32) p k
  have hb : broadcastTo S512x512 (shapeCast S1x512 x2 shapeCasts_S1x1x512_S1x512) broadcasts_S1x512_S512x512 (ix2 p k) = x2 (ix3 0 0 k) :=
    (broadcastTo_1b_ab_apply _ _ p k).trans (shapeCast_1ab_ab_apply x2 _ 0 k)
  have hz : (Scalar.ofBits (F := Ideal) .f32 0x00000000#32 : EReal) = 0 := Ideal.ofBits_zero_f32
  rw [hb, hz]
  refine congrArg (fun z => max (z + x2 (ix3 0 0 k)) 0) (hm.trans ?_)
  refine Finset.sum_congr rfl fun d _ => ?_
  rw [truncf_apply, truncf_apply, shapeCast_1ab_ab_apply, shapeCast_1ab_ab_apply]

/-- One point's step at a position of the block: what the block held there plus the sum over the tile's hidden units. -/
theorem step_apply (x0 : Vec Ideal S1x512x1024 .f32) (x1 : Vec Ideal S1x1024x512 .f32) (x2 : Vec Ideal S1x1x512 .f32)
    (x3 : Vec Ideal S1x512x1024 .f32) (acc : Vec Ideal S1x512x1024 .f32) (u : Fin 1) (p : Fin 512) (q : Fin 1024) :
    k0_pay3 (F := Ideal) x0 x1 x2 x3 acc (ix3 u p q)
      = acc (ix3 0 p q) + ∑ k : Fin 512,
          max ((∑ d : Fin 1024, x0 (ix3 0 p d) * x1 (ix3 0 d k)) + x2 (ix3 0 0 k)) 0 * x3 (ix3 0 k q) := by
  unfold k0_pay3
  refine (shapeCast_ab_1ab_apply _ _ u p q).trans ?_
  rw [addf_apply, shapeCast_1ab_ab_apply]
  refine congrArg (fun z => acc (ix3 0 p q) + z) ?_
  refine (Cert.DotPlain.matmul_zero_rows_cols (M := 512) (K := 512) (N := 1024) dot_S512x512_S512x1024_S512x1024_1_0_0_1_n_n rfl rfl rfl rfl rfl rfl none _ _ p q).trans ?_
  refine Finset.sum_congr rfl fun k _ => ?_
  rw [truncf_apply, truncf_apply, shapeCast_1ab_ab_apply]
  exact congrArg (fun z => z * x3 (ix3 0 k q)) (hidden_apply x0 x1 x2 p k)

/-- The closing step at a position of the block: the output bias row's entry of that column is added. -/
theorem bias_apply (a : Vec Ideal S1x512x1024 .f32) (x4 : Vec Ideal S1x1x1024 .f32) (u : Fin 1) (p : Fin 512) (q : Fin 1024) :
    k0_pay1 (F := Ideal) a x4 (ix3 u p q) = a (ix3 0 p q) + x4 (ix3 0 0 q) := by
  unfold k0_pay1
  refine (shapeCast_ab_1ab_apply _ _ u p q).trans ?_
  rw [addf_apply, shapeCast_1ab_ab_apply]
  exact congrArg (fun z => a (ix3 0 p q) + z) ((broadcastTo_1b_ab_apply _ _ p q).trans (shapeCast_1ab_ab_apply x4 _ 0 q))

end Cert.KernelIdeal.FfnBody

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.Spec.lean ====
/- The batched two-layer feed-forward network as one function of its five arrays.

   For expert e, token t and output feature q the result is the sum, over the 4096 hidden units k, of
   max(sum over the 1024 input features d of x(e, t, d) * w1(e, d, k) + b1(e, 0, k), 0) * w2(e, k, q), plus b2(e, 0, q).
   The hidden axis splits into 8 tiles of 512 consecutive units; adding the tiles' partial sums one after another
   onto zero gives the whole sum, in any commutative additive monoid, so nothing here asks the entries to be finite. -/
import Idealize.ShloMosaic.PureOps.Ideal
import Idealize.ShloMosaic.Lib.ValueIdx
import proofs.«112483_j13855564497414_1_alg».proof.Proof.LibBlockSum

noncomputable section

namespace Cert.Ffn

open Idealize.ShloMosaic Idealize.ShloMosaic.ValueIdx
open scoped BigOperators

/-- A rank-3 array of extended reals. -/
abbrev Arr (a b c : ℕ) : Type := (⟨3, ![a, b, c]⟩ : Shape).Idx → EReal

/-- Hidden unit k of token t of expert e: the first layer's affine map, rectified. -/
def hidden (x : Arr 8 2048 1024) (w1 : Arr 8 1024 4096) (b1 : Arr 8 1 4096) (e : Fin 8) (t : Fin 2048) (k : Fin 4096) : EReal :=
  max ((∑ d : Fin 1024, x (ix3 e t d) * w1 (ix3 e d k)) + b1 (ix3 e 0 k)) 0

/-- Hidden unit k's share of output feature q. -/
def term (x : Arr 8 2048 1024) (w1 : Arr 8 1024 4096) (b1 : Arr 8 1 4096) (w2 : Arr 8 4096 1024)
    (e : Fin 8) (t : Fin 2048) (q : Fin 1024) (k : Fin 4096) : EReal :=
  hidden x w1 b1 e t k * w2 (ix3 e k q)

/-- The network's output array. -/
def ffn (x : Arr 8 2048 1024) (w1 : Arr 8 1024 4096) (b1 : Arr 8 1 4096) (w2 : Arr 8 4096 1024) (b2 : Arr 8 1 1024) :
    Arr 8 2048 1024 := fun i =>
  (∑ k : Fin 4096, term x w1 b1 w2 (i 0) (i 1) (i 2) k) + b2 (ix3 (i 0) 0 (i 2))

/-- Hidden unit k of tile s, among all 4096 hidden units: unit 512 * s + k. -/
abbrev hpos (s : Fin 8) (k : Fin 512) : Fin 4096 := Cert.BlockSum.pos (show 8 * 512 = 4096 from rfl) s k

/-- The eight tiles' partial sums, added onto zero one after another, are the sum over all hidden units. -/
theorem tiles_sum (T : Fin 4096 → EReal) (bias : EReal) :
    (0 + ∑ s : Fin 8, ∑ k : Fin 512, T (hpos s k)) + bias = (∑ n : Fin 4096, T n) + bias := by
  rw [zero_add, Cert.BlockSum.sum_blocks (show 8 * 512 = 4096 from rfl) T]

end Cert.Ffn

end
-- ==== Proof.KernelValue.lean ====
/- The kernel's output array is the feed-forward network of its five argument arrays.

   The grid is 8 experts by 4 token tiles by 8 hidden tiles, the hidden tile moving fastest, so points 8r .. 8r + 7
   form the run r = 4 * e + (token tile) that fills one [512, 1024] output block. Point n reads rows
   512 * (n / 8 mod 4) .. of x, columns 512 * (n mod 8) .. of w1 and b1, and rows 512 * (n mod 8) .. of w2, all of expert
   n / 32. The first point of a run starts from the cleared block, every point adds its hidden tile's partial sum, and
   the last point adds the output bias row. So the block ends holding zero plus the eight tiles' partial sums plus the
   bias, and the eight tiles of 512 consecutive hidden units are the 4096 hidden units. -/
import proofs.«112483_j13855564497414_1_alg».proof.Proof.Gen.KernelIdeal.Value
import proofs.«112483_j13855564497414_1_alg».proof.Proof.Body
import proofs.«112483_j13855564497414_1_alg».proof.Proof.Spec
import Idealize.ShloMosaic.Lib.Pipeline.Value
import Idealize.ShloMosaic.Lib.ValueIdx

noncomputable section

namespace Cert.KernelIdeal.FfnValue

open Cert.KernelIdeal Cert.KernelIdeal.Gen Cert.KernelIdeal.Value Idealize.ShloMosaic Idealize.ShloMosaic.TcCoe
open Idealize.ShloMosaic.ValueIdx Idealize.SL.Sem
open scoped BigOperators

variable (m : (ℓ : Loc nD τ sig) → Buf (Elt Ideal) ℓ)

/-! ## The input blocks of a point and the argument arrays, at their literal types -/

abbrev xblk (c : Dev nD) (t : Fin cfg0.N) : Vec Ideal S1x512x1024 .f32 := iblk m c 0 t
abbrev w1blk (c : Dev nD) (t : Fin cfg0.N) : Vec Ideal S1x1024x512 .f32 := iblk m c 1 t
abbrev b1blk (c : Dev nD) (t : Fin cfg0.N) : Vec Ideal S1x1x512 .f32 := iblk m c 2 t
abbrev w2blk (c : Dev nD) (t : Fin cfg0.N) : Vec Ideal S1x512x1024 .f32 := iblk m c 3 t
abbrev b2blk (c : Dev nD) (t : Fin cfg0.N) : Vec Ideal S1x1x1024 .f32 := iblk m c 4 t

abbrev xarr (c : Dev nD) : Vec Ideal S8x2048x1024 .f32 := V m c main_arg0
abbrev w1arr (c : Dev nD) : Vec Ideal S8x1024x4096 .f32 := V m c main_arg1
abbrev b1arr (c : Dev nD) : Vec Ideal S8x1x4096 .f32 := V m c main_arg2
abbrev w2arr (c : Dev nD) : Vec Ideal S8x4096x1024 .f32 := V m c main_arg3
abbrev b2arr (c : Dev nD) : Vec Ideal S8x1x1024 .f32 := V m c main_arg4

/-- Which block of its array each input window holds at point t: the expert is t / 32, the token tile t / 8 mod 4, the
    hidden tile t mod 8. -/
theorem idx_in : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = t.val % 8 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

/-! ## A block's entry is the array's entry at block index times block size plus the place in the block -/

theorem xblk_apply (c : Dev nD) (t : Fin cfg0.N) (y : S1x512x1024.Idx) (j : S8x2048x1024.Idx)
    (h0 : win0_0.index t (0 : Fin 3) * 1 + 1 * (y 0).val = (j 0).val)
    (h1 : win0_0.index t (1 : Fin 3) * 512 + 1 * (y 1).val = (j 1).val)
    (h2 : win0_0.index t (2 : Fin 3) * 1024 + 1 * (y 2).val = (j 2).val) :
    xblk m c t y = xarr m c j := by
  show V m c main_arg0 (((cfg0.win 0).blk t).view.emb y) = V m c main_arg0 j
  refine congrArg (V m c main_arg0) (funext fun a => Fin.ext ?_)
  match a with
  | ⟨0, _⟩ => exact h0
  | ⟨1, _⟩ => exact h1
  | ⟨2, _⟩ => exact h2

theorem w1blk_apply (c : Dev nD) (t : Fin cfg0.N) (y : S1x1024x512.Idx) (j : S8x1024x4096.Idx)
    (h0 : win0_1.index t (0 : Fin 3) * 1 + 1 * (y 0).val = (j 0).val)
    (h1 : win0_1.index t (1 : Fin 3) * 1024 + 1 * (y 1).val = (j 1).val)
    (h2 : win0_1.index t (2 : Fin 3) * 512 + 1 * (y 2).val = (j 2).val) :
    w1blk m c t y = w1arr m c j := by
  show V m c main_arg1 (((cfg0.win 1).blk t).view.emb y) = V m c main_arg1 j
  refine congrArg (V m c main_arg1) (funext fun a => Fin.ext ?_)
  match a with
  | ⟨0, _⟩ => exact h0
  | ⟨1, _⟩ => exact h1
  | ⟨2, _⟩ => exact h2

theorem b1blk_apply (c : Dev nD) (t : Fin cfg0.N) (y : S1x1x512.Idx) (j : S8x1x4096.Idx)
    (h0 : win0_2.index t (0 : Fin 3) * 1 + 1 * (y 0).val = (j 0).val)
    (h1 : win0_2.index t (1 : Fin 3) * 1 + 1 * (y 1).val = (j 1).val)
    (h2 : win0_2.index t (2 : Fin 3) * 512 + 1 * (y 2).val = (j 2).val) :
    b1blk m c t y = b1arr m c j := by
  show V m c main_arg2 (((cfg0.win 2).blk t).view.emb y) = V m c main_arg2 j
  refine congrArg (V m c main_arg2) (funext fun a => Fin.ext ?_)
  match a with
  | ⟨0, _⟩ => exact h0
  | ⟨1, _⟩ => exact h1
  | ⟨2, _⟩ => exact h2

theorem w2blk_apply (c : Dev nD) (t : Fin cfg0.N) (y : S1x512x1024.Idx) (j : S8x4096x1024.Idx)
    (h0 : win0_3.index t (0 : Fin 3) * 1 + 1 * (y 0).val = (j 0).val)
    (h1 : win0_3.index t (1 : Fin 3) * 512 + 1 * (y 1).val = (j 1).val)
    (h2 : win0_3.index t (2 : Fin 3) * 1024 + 1 * (y 2).val = (j 2).val) :
    w2blk m c t y = w2arr m c j := by
  show V m c main_arg3 (((cfg0.win 3).blk t).view.emb y) = V m c main_arg3 j
  refine congrArg (V m c main_arg3) (funext fun a => Fin.ext ?_)
  match a with
  | ⟨0, _⟩ => exact h0
  | ⟨1, _⟩ => exact h1
  | ⟨2, _⟩ => exact h2

theorem b2blk_apply (c : Dev nD) (t : Fin cfg0.N) (y : S1x1x1024.Idx) (j : S8x1x1024.Idx)
    (h0 : win0_4.index t (0 : Fin 3) * 1 + 1 * (y 0).val = (j 0).val)
    (h1 : win0_4.index t (1 : Fin 3) * 1 + 1 * (y 1).val = (j 1).val)
    (h2 : win0_4.index t (2 : Fin 3) * 1024 + 1 * (y 2).val = (j 2).val) :
    b2blk m c t y = b2arr m c j := by
  show V m c main_arg4 (((cfg0.win 4).blk t).view.emb y) = V m c main_arg4 j
  refine congrArg (V m c main_arg4) (funext fun a => Fin.ext ?_)
  match a with
  | ⟨0, _⟩ => exact h0
  | ⟨1, _⟩ => exact h1
  | ⟨2, _⟩ => exact h2

/-! ## One point's partial sum, and the steps of a run in terms of it -/

/-- The partial sum a point adds at place y of the block, from the point's four input blocks: the sum over the tile's
    512 hidden units. -/
def addendOf (x0 : Vec Ideal S1x512x1024 .f32) (x1 : Vec Ideal S1x1024x512 .f32) (x2 : Vec Ideal S1x1x512 .f32)
    (x3 : Vec Ideal S1x512x1024 .f32) (y : S1x512x1024.Idx) : EReal :=
  ∑ k : Fin 512, max ((∑ d : Fin 1024, x0 (ix3 0 (y 1) d) * x1 (ix3 0 d k)) + x2 (ix3 0 0 k)) 0 * x3 (ix3 0 k (y 2))

/-- Point n's partial sum (zero past the grid, where it is never used). -/
def addend (c : Dev nD) (n : ℕ) (y : S1x512x1024.Idx) : EReal :=
  if h : n < cfg0.N then addendOf (xblk m c ⟨n, h⟩) (w1blk m c ⟨n, h⟩) (b1blk m c ⟨n, h⟩) (w2blk m c ⟨n, h⟩) y else 0

/-- A run's first point leaves zero plus its partial sum. -/
theorem reset_apply (c : Dev nD) (b : ℕ) (h : b < cfg0.N) (y : S1x512x1024.Idx) :
    reset5 m c b h y = 0 + addend m c b y := by
  obtain ⟨u, p, q, rfl⟩ : ∃ (u : Fin 1) (p : Fin 512) (q : Fin 1024), y = ix3 u p q := ⟨y 0, y 1, y 2, eq_ix3 y⟩
  unfold reset5 addend
  rw [dif_pos h]
  refine (Cert.KernelIdeal.FfnBody.step_apply (xblk m c ⟨b, h⟩) (w1blk m c ⟨b, h⟩) (b1blk m c ⟨b, h⟩) (w2blk m c ⟨b, h⟩)
    (k0_pay2 (F := Ideal)) u p q).trans ?_
  rw [Cert.KernelIdeal.FfnBody.cleared_apply]
  rfl

/-- A point inside a run adds its partial sum to what the point before left. -/
theorem step_mid (c : Dev nD) (n : ℕ) (h : n < cfg0.N) (h0 : ¬n % 8 = 0) (h7 : ¬n % 8 = 7)
    (acc : Vec Ideal S1x512x1024 .f32) (y : S1x512x1024.Idx) :
    step5 m c n h acc y = acc y + addend m c n y := by
  obtain ⟨u, p, q, rfl⟩ : ∃ (u : Fin 1) (p : Fin 512) (q : Fin 1024), y = ix3 u p q := ⟨y 0, y 1, y 2, eq_ix3 y⟩
  have hu : u = 0 := Subsingleton.elim _ _
  subst hu
  unfold step5 addend
  rw [if_pos ⟨h0, h7⟩, dif_pos h]
  exact Cert.KernelIdeal.FfnBody.step_apply (xblk m c ⟨n, h⟩) (w1blk m c ⟨n, h⟩) (b1blk m c ⟨n, h⟩) (w2blk m c ⟨n, h⟩) acc 0 p q

/-- A run's last point adds its partial sum and then the output bias row. -/
theorem step_last (c : Dev nD) (n : ℕ) (h : n < cfg0.N) (h7 : n % 8 = 7)
    (acc : Vec Ideal S1x512x1024 .f32) (y : S1x512x1024.Idx) :
    step5 m c n h acc y = (acc y + addend m c n y) + b2blk m c ⟨n, h⟩ (ix3 0 0 (y 2)) := by
  obtain ⟨u, p, q, rfl⟩ : ∃ (u : Fin 1) (p : Fin 512) (q : Fin 1024), y = ix3 u p q := ⟨y 0, y 1, y 2, eq_ix3 y⟩
  have hu : u = 0 := Subsingleton.elim _ _
  subst hu
  unfold step5 addend
  rw [if_neg (fun hh => hh.2 h7), if_pos ⟨by omega, h7⟩, dif_pos h]
  refine (Cert.KernelIdeal.FfnBody.bias_apply _ (b2blk m c ⟨n, h⟩) 0 p q).trans ?_
  exact congrArg (fun z => z + b2blk m c ⟨n, h⟩ (ix3 0 0 q))
    (Cert.KernelIdeal.FfnBody.step_apply (xblk m c ⟨n, h⟩) (w1blk m c ⟨n, h⟩) (b1blk m c ⟨n, h⟩) (w2blk m c ⟨n, h⟩) acc 0 p q)

/-! ## The array at an index -/

/-- The run whose block holds index i = (e, t, q) is 4 * e + t / 512. -/
theorem run_of (i : S8x2048x1024.Idx) : run5Of i = 4 * (i 0).val + (i 1).val / 512 := by
  have h2 : (i 2).val < 1024 := (i 2).isLt
  show 4 * ((i 0).val / 1 - 0) + 1 * ((i 1).val / 512 - 0) + 1 * ((i 2).val / 1024 - 0) = _
  omega

/-- The array's entry at i: zero, plus the partial sums of the run's first seven points, plus the eighth's, plus the bias
    row's entry the last point reads. -/
theorem G5_apply (c : Dev nD) (i : S8x2048x1024.Idx) (hr : 8 * run5Of i + 7 < cfg0.N) :
    G5 m c i = ((0 + ∑ s ∈ Finset.range 7, addend m c (8 * run5Of i + s) (loc5Of i)) + addend m c (8 * run5Of i + 7) (loc5Of i))
        + b2blk m c ⟨8 * run5Of i + 7, hr⟩ (ix3 0 0 (loc5Of i 2)) := by
  unfold G5
  rw [dif_pos hr]
  refine (congrFun (Pipeline.accAt_succ (reset5 m c) (step5 m c) (8 * run5Of i) 6 hr) (loc5Of i)).trans ?_
  rw [step_last m c _ hr (by omega)]
  rw [Pipeline.accAt_add_apply (reset5 m c) (step5 m c) (fun _ => 0) (addend m c) (8 * run5Of i) 6
    (fun h y => reset_apply m c _ h y)
    (fun n h acc y hlo hhi => step_mid m c n h (by omega) (by omega) acc y) 6 le_rfl _ (loc5Of i)]

/-- Point 8r + s's partial sum at i's place in the block is the sum of hidden tile s's shares of the output at i. -/
theorem addend_eq (c : Dev nD) (i : S8x2048x1024.Idx) (s : Fin 8) :
    addend m c (8 * run5Of i + s.val) (loc5Of i)
      = ∑ k : Fin 512, Cert.Ffn.term (xarr m c) (w1arr m c) (b1arr m c) (w2arr m c) (i 0) (i 1) (i 2) (Cert.Ffn.hpos s k) := by
  have h0 : (i 0).val < 8 := (i 0).isLt
  have h1 : (i 1).val < 2048 := (i 1).isLt
  have h2 : (i 2).val < 1024 := (i 2).isLt
  have hs : s.val < 8 := s.isLt
  have hr := run_of i
  have hN : cfg0.N = 256 := N_0
  have hn : 8 * run5Of i + s.val < cfg0.N := by rw [hN, hr]; omega
  unfold addend
  rw [dif_pos hn]
  unfold addendOf
  obtain ⟨a00, a01, a02, a10, a11, a12, a20, a21, a22, a30, a31, a32, -, -, -⟩ := idx_in ⟨8 * run5Of i + s.val, hn⟩
  dsimp only at a00 a01 a02 a10 a11 a12 a20 a21 a22 a30 a31 a32
  refine Finset.sum_congr rfl fun k _ => ?_
  have hk : k.val < 512 := k.isLt
  unfold Cert.Ffn.term Cert.Ffn.hidden
  have ex : ∀ d : Fin 1024, xblk m c ⟨8 * run5Of i + s.val, hn⟩ (ix3 0 (loc5Of i 1) d) = xarr m c (ix3 (i 0) (i 1) d) := fun d =>
    xblk_apply m c _ _ _
      (by show _ * 1 + 1 * 0 = (i 0).val; rw [a00, hr]; omega)
      (by show _ * 512 + 1 * ((i 1).val % 512) = (i 1).val; rw [a01, hr]; omega)
      (by show _ * 1024 + 1 * d.val = d.val; rw [a02]; omega)
  have ew1 : ∀ d : Fin 1024, w1blk m c ⟨8 * run5Of i + s.val, hn⟩ (ix3 0 d k) = w1arr m c (ix3 (i 0) d (Cert.Ffn.hpos s k)) := fun d =>
    w1blk_apply m c _ _ _
      (by show _ * 1 + 1 * 0 = (i 0).val; rw [a10, hr]; omega)
      (by show _ * 1024 + 1 * d.val = d.val; rw [a11]; omega)
      (by show _ * 512 + 1 * k.val = 512 * s.val + k.val; rw [a12, hr]; omega)
  have eb1 : b1blk m c ⟨8 * run5Of i + s.val, hn⟩ (ix3 0 0 k) = b1arr m c (ix3 (i 0) 0 (Cert.Ffn.hpos s k)) :=
    b1blk_apply m c _ _ _
      (by show _ * 1 + 1 * 0 = (i 0).val; rw [a20, hr]; omega)
      (by show _ * 1 + 1 * 0 = 0; rw [a21])
      (by show _ * 512 + 1 * k.val = 512 * s.val + k.val; rw [a22, hr]; omega)
  have ew2 : w2blk m c ⟨8 * run5Of i + s.val, hn⟩ (ix3 0 k (loc5Of i 2)) = w2arr m c (ix3 (i 0) (Cert.Ffn.hpos s k) (i 2)) :=
    w2blk_apply m c _ _ _
      (by show _ * 1 + 1 * 0 = (i 0).val; rw [a30, hr]; omega)
      (by show _ * 512 + 1 * k.val = 512 * s.val + k.val; rw [a31, hr]; omega)
      (by show _ * 1024 + 1 * ((i 2).val % 1024) = (i 2).val; rw [a32]; omega)
  simp only [ex, ew1]
  rw [eb1, ew2]

/-- The bias entry the run's last point reads is the output bias row's entry of i's expert and column. -/
theorem bias_eq (c : Dev nD) (i : S8x2048x1024.Idx) (hr : 8 * run5Of i + 7 < cfg0.N) :
    b2blk m c ⟨8 * run5Of i + 7, hr⟩ (ix3 0 0 (loc5Of i 2)) = b2arr m c (ix3 (i 0) 0 (i 2)) := by
  have h0 : (i 0).val < 8 := (i 0).isLt
  have h1 : (i 1).val < 2048 := (i 1).isLt
  have h2 : (i 2).val < 1024 := (i 2).isLt
  have hrun := run_of i
  obtain ⟨-, -, -, -, -, -, -, -, -, -, -, -, a40, a41, a42⟩ := idx_in ⟨8 * run5Of i + 7, hr⟩
  dsimp only at a40 a41 a42
  exact b2blk_apply m c _ _ _
    (by show _ * 1 + 1 * 0 = (i 0).val; rw [a40, hrun]; omega)
    (by show _ * 1 + 1 * 0 = 0; rw [a41])
    (by show _ * 1024 + 1 * ((i 2).val % 1024) = (i 2).val; rw [a42]; omega)

/-- THE KERNEL'S OUTPUT ARRAY is the network of the argument arrays. -/
theorem kernel_value (c : Dev nD) :
    G5 m c = Cert.Ffn.ffn (xarr m c) (w1arr m c) (b1arr m c) (w2arr m c) (b2arr m c) := by
  funext i
  have h0 : (i 0).val < 8 := (i 0).isLt
  have h1 : (i 1).val < 2048 := (i 1).isLt
  have hrun := run_of i
  have hN : cfg0.N = 256 := N_0
  have hr : 8 * run5Of i + 7 < cfg0.N := by rw [hN, hrun]; omega
  have hsum : (0 + ∑ s ∈ Finset.range 7, addend m c (8 * run5Of i + s) (loc5Of i)) + addend m c (8 * run5Of i + 7) (loc5Of i)
      = 0 + ∑ s : Fin 8, ∑ k : Fin 512,
          Cert.Ffn.term (xarr m c) (w1arr m c) (b1arr m c) (w2arr m c) (i 0) (i 1) (i 2) (Cert.Ffn.hpos s k) := by
    rw [add_assoc, ← Finset.sum_range_succ (fun s => addend m c (8 * run5Of i + s) (loc5Of i)) 7,
      Finset.sum_range (fun s => addend m c (8 * run5Of i + s) (loc5Of i))]
    exact congrArg (fun z => 0 + z) (Finset.sum_congr rfl fun s _ => addend_eq m c i s)
  rw [G5_apply m c i hr, hsum, bias_eq m c i hr]
  exact Cert.Ffn.tiles_sum _ _

end Cert.KernelIdeal.FfnValue

end
-- ==== Proof.RefAt.lean ====
/- The reference program's result is the feed-forward network of its five arrays.

   Read one operation at a time: the second batched product at (e, t, q) sums, over the hidden units k, the rectified
   first layer at (e, t, k) times w2(e, k, q); the first batched product at (e, t, k) sums x(e, t, d) * w1(e, d, k)
   over the input features d; both bias rows are broadcast along the token axis; the rectifier compares with the
   constant zero. -/
import proofs.«112483_j13855564497414_1_alg».proof.Proof.Gen.ReferenceIdeal.Read
import proofs.«112483_j13855564497414_1_alg».proof.Proof.Spec
import Idealize.ShloMosaic.PureOps.Ideal.Laws

noncomputable section

namespace Cert.ReferenceIdeal.FfnRef

open Cert.ReferenceIdeal Cert.ReferenceIdeal.Gen Cert.ReferenceIdeal.Read Idealize.ShloMosaic Idealize.ShloMosaic.ValueIdx
open scoped BigOperators

/-- The reference's last stage, index by index, is the network's output. -/
theorem ref_value (x0 : (⟨S8x2048x1024, .f32⟩ : BufTy).Contents (Elt Ideal)) (x1 : (⟨S8x1024x4096, .f32⟩ : BufTy).Contents (Elt Ideal))
    (x2 : (⟨S8x1x4096, .f32⟩ : BufTy).Contents (Elt Ideal)) (x3 : (⟨S8x4096x1024, .f32⟩ : BufTy).Contents (Elt Ideal))
    (x4 : (⟨S8x1x1024, .f32⟩ : BufTy).Contents (Elt Ideal)) :
    val_main_v6 (F := Ideal) x0 x1 x2 x3 x4 = Cert.Ffn.ffn x0 x1 x2 x3 x4 := by
  funext i
  rw [val_main_v6_apply, val_main_v4_apply, val_main_v5_apply]
  unfold Cert.Ffn.ffn
  -- the output bias row is read at (e, 0, q)
  have e5 : idx_main_v5 i = ix3 (i 0) 0 (i 2) :=
    funext fun a => match a with | ⟨0, _⟩ => rfl | ⟨1, _⟩ => rfl | ⟨2, _⟩ => rfl
  rw [e5]
  refine congrArg (fun z => z + x4 (ix3 (i 0) 0 (i 2))) (Finset.sum_congr rfl fun k _ => ?_)
  rw [val_main_v3_apply, val_main_v2_apply, val_main_v0_apply, val_main_v1_apply, val_main_call0_v0_apply,
    val_main_call0_cst_apply]
  unfold Cert.Ffn.term Cert.Ffn.hidden
  -- the operands' indices, coordinate by coordinate
  have e4r : ridx_main_v4 i k = ix3 (i 0) k (i 2) :=
    funext fun a => match a with | ⟨0, _⟩ => rfl | ⟨1, _⟩ => rfl | ⟨2, _⟩ => rfl
  have e1 : idx_main_v1 (lidx_main_v4 i k) = ix3 (i 0) 0 k :=
    funext fun a => match a with | ⟨0, _⟩ => rfl | ⟨1, _⟩ => rfl | ⟨2, _⟩ => rfl
  have e0l : ∀ d : Fin 1024, lidx_main_v0 (lidx_main_v4 i k) d = ix3 (i 0) (i 1) d := fun d =>
    funext fun a => match a with | ⟨0, _⟩ => rfl | ⟨1, _⟩ => rfl | ⟨2, _⟩ => rfl
  have e0r : ∀ d : Fin 1024, ridx_main_v0 (lidx_main_v4 i k) d = ix3 (i 0) d k := fun d =>
    funext fun a => match a with | ⟨0, _⟩ => rfl | ⟨1, _⟩ => rfl | ⟨2, _⟩ => rfl
  rw [e4r, e1]
  simp only [e0l, e0r]
  show max (_ + _) (Ideal.ofBits .f32 0x00000000#32) * _ = _
  rw [Ideal.ofBits_zero_f32]
  rfl

end Cert.ReferenceIdeal.FfnRef

end
-- ==== Proof.lean ====
/- A batched two-layer feed-forward network fused into one kernel, against the plain two-contraction reference:
   equal over the extended reals.

   For expert e, token t and output feature q both programs compute the sum, over the 4096 hidden units k, of
   max(sum over d of x(e, t, d) * w1(e, d, k) + b1(e, 0, k), 0) * w2(e, k, q), plus b2(e, 0, q). The reference forms the
   sum in one contraction. The kernel walks the hidden axis in eight tiles of 512 units along its last grid axis: the
   first tile's point clears the output block, every point adds its tile's partial sum, and the last point adds the bias
   row. Adding the tiles' partial sums one after another onto zero is a regrouping of the same sum, which holds in every
   commutative additive monoid, so the finiteness of the inputs is never used. The kernel's changes of float format
   are the identity on the extended reals, and its products into a zero accumulator are plain sums.

   The kernel's output array as a fold over each run of eight points is the generated value leg; that the fold is the
   network (KernelValue), and that the reference's stages compose to the network (RefAt), are proved beside this file;
   here the two are set side by side on memories that agree on the arguments. -/
import proofs.«112483_j13855564497414_1_alg».proof.Defs
import proofs.«112483_j13855564497414_1_alg».proof.Proof.Gen.Kernel.Frame
import proofs.«112483_j13855564497414_1_alg».proof.Proof.Gen.KernelIdeal.Value
import proofs.«112483_j13855564497414_1_alg».proof.Proof.Gen.Pre_finite_inputs
import proofs.«112483_j13855564497414_1_alg».proof.Proof.Gen.ReferenceIdeal.Run
import proofs.«112483_j13855564497414_1_alg».proof.Proof.KernelValue
import proofs.«112483_j13855564497414_1_alg».proof.Proof.RefAt
import Idealize.ShloMosaic.Adequacy
import Idealize.ShloMosaic.Init

noncomputable section

namespace Cert.Proof

open Idealize.ShloMosaic Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments as they were: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the five arguments both programs end with the network's output array: the reference's
    composed stages are the network, and so is the fold the kernel's runs leave in its output array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v6_eq _ _ _ _ _).trans
    ((Cert.ReferenceIdeal.FfnRef.ref_value _ _ _ _ _).trans (Cert.KernelIdeal.FfnValue.kernel_value m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
